-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S512x1024 : Shape := ⟨2, ![512, 1024]⟩
abbrev S256x1024 : Shape := ⟨2, ![256, 1024]⟩
abbrev S512x1 : Shape := ⟨2, ![512, 1]⟩
abbrev S512x256 : Shape := ⟨2, ![512, 256]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  broadcasts_S512x1_S512x1024 : S512x1.Broadcasts S512x1024
  dot_S512x1024_S256x1024_S512x256_1_1_0_0_n_n_wf : DotDims.WF S512x1024 S256x1024 S512x256 [1] [1] [0] [0] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S4096x1024_S4096x4096_1_1_0_0_n_n_wf : DotDims.WF S4096x1024 S4096x1024 S4096x4096 [1] [1] [0] [0] [] []
  dot_S4096x4096_S4096x1024_S4096x1024_1_0_0_1_n_n_wf : DotDims.WF S4096x4096 S4096x1024 S4096x1024 [1] [0] [0] [1] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.OnlineSoftmax.lean ====
/-
  The mathematics of attention computed by the online-softmax recurrence, over the reals and their image in
  the extended reals. Nothing here mentions a program.

  Fix a row of scores `f i` and weights `g i` over a finite index set. For a real shift `μ` write
    Z μ = ∑ i, exp (f i - μ)          (the normaliser),
    A μ = ∑ i, exp (f i - μ) * g i    (the weighted numerator).
  Two facts carry the whole argument.
  * RESCALING: exp (μ - μ') * exp (x - μ) = exp (x - μ'), so multiplying a partial normaliser or numerator taken
    at shift `μ` by exp (μ - μ') turns it into the same partial sum at shift `μ'`; adding the next block's terms
    at shift `μ'` extends the sum. This is one step of the recurrence, whatever the two shifts are.
  * SHIFT INVARIANCE OF THE QUOTIENT: A μ / Z μ does not depend on `μ`, because changing the shift multiplies
    numerator and normaliser by the same positive factor; and dividing the numerator by Z μ is dividing each
    term, since Z μ is a positive real. So a quotient taken at the shift the recurrence ends with equals the
    softmax-weighted sum taken at any other shift (in particular at the row maximum).
  The shift only has to be a real number: that a running maximum of reals, started from -∞ over a nonempty
  block, is a real is the last section.
-/
import Idealize.ShloMosaic.PureOps.Ideal

noncomputable section

namespace Cert.OnlineSoftmax

open Idealize.ShloMosaic

/-! ## Coercions of finite sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of two reals, taken in the extended reals. -/
theorem exp_sub_coe (a b : ℝ) : Ideal.exp ((a : EReal) - (b : EReal)) = ((Real.exp (a - b) : ℝ) : EReal) := by
  rw [← EReal.coe_sub]; rfl

/-! ## Rescaling -/

/-- Changing the shift of one exponential term. -/
theorem rescale_term (μ μ' x : ℝ) : Real.exp (μ - μ') * Real.exp (x - μ) = Real.exp (x - μ') := by
  rw [← Real.exp_add]; congr 1; ring

/-- Changing the shift of a weighted partial sum. -/
theorem rescale_sum {ι : Type*} (s : Finset ι) (f g : ι → ℝ) (μ μ' : ℝ) :
    Real.exp (μ - μ') * ∑ i ∈ s, Real.exp (f i - μ) * g i = ∑ i ∈ s, Real.exp (f i - μ') * g i := by
  rw [Finset.mul_sum]
  refine Finset.sum_congr rfl fun i _ => ?_
  rw [← mul_assoc, rescale_term]

/-- Changing the shift of a partial normaliser. -/
theorem rescale_norm {ι : Type*} (s : Finset ι) (f : ι → ℝ) (μ μ' : ℝ) :
    Real.exp (μ - μ') * ∑ i ∈ s, Real.exp (f i - μ) = ∑ i ∈ s, Real.exp (f i - μ') := by
  rw [Finset.mul_sum]
  exact Finset.sum_congr rfl fun i _ => rescale_term μ μ' (f i)

/-! ## The quotient does not depend on the shift -/

/-- A normaliser over a nonempty index set is positive. -/
theorem norm_pos {ι : Type*} [Fintype ι] [Nonempty ι] (f : ι → ℝ) (μ : ℝ) : 0 < ∑ i, Real.exp (f i - μ) :=
  Finset.sum_pos (fun i _ => Real.exp_pos _) Finset.univ_nonempty

/-- Over the reals: the numerator at shift `μ` over its normaliser is the sum of the terms at shift `M`, each
    divided by the normaliser at `M`. -/
theorem quotient_shift {ι : Type*} [Fintype ι] [Nonempty ι] (f g : ι → ℝ) (μ M : ℝ) :
    (∑ i, Real.exp (f i - μ) * g i) / (∑ i, Real.exp (f i - μ))
      = ∑ i, Real.exp (f i - M) / (∑ j, Real.exp (f j - M)) * g i := by
  have hμ : (∑ i, Real.exp (f i - μ)) ≠ 0 := (norm_pos f μ).ne'
  have hM : (∑ i, Real.exp (f i - M)) ≠ 0 := (norm_pos f M).ne'
  rw [← rescale_sum Finset.univ f g M μ, ← rescale_norm Finset.univ f M μ,
    mul_div_mul_left _ _ (Real.exp_pos _).ne', Finset.sum_div]
  exact Finset.sum_congr rfl fun i _ => by ring

/-- The same in the extended reals, with the ideal division: what a kernel's final `acc / l` and a reference's
    `∑ (p / L) * v` both are. -/
theorem quotient_shift_coe {ι : Type*} [Fintype ι] [Nonempty ι] (f g : ι → ℝ) (μ M : ℝ) :
    Ideal.div ((∑ i, Real.exp (f i - μ) * g i : ℝ) : EReal) ((∑ i, Real.exp (f i - μ) : ℝ) : EReal)
      = ∑ i, Ideal.div ((Real.exp (f i - M) : ℝ) : EReal) ((∑ j, Real.exp (f j - M) : ℝ) : EReal) * (g i : EReal) := by
  have hμ : (∑ i, Real.exp (f i - μ)) ≠ 0 := (norm_pos f μ).ne'
  have hM : (∑ i, Real.exp (f i - M)) ≠ 0 := (norm_pos f M).ne'
  rw [Ideal.div_coe hμ, ← EReal.coe_mul, ← div_eq_mul_one_div, quotient_shift f g μ M, coe_sum]
  refine Finset.sum_congr rfl fun i _ => ?_
  rw [Ideal.div_coe hM, ← EReal.coe_mul, ← EReal.coe_mul, ← div_eq_mul_one_div]

/-! ## The shift-free form -/

/-- Attention along one row, with no shift: the `exp`-weighted mean of `g`. -/
def attnRow {ι : Type*} [Fintype ι] (f g : ι → ℝ) : ℝ :=
  (∑ i, Real.exp (f i) * g i) / (∑ i, Real.exp (f i))

/-- Over the reals, the quotient at any shift is the shift-free one. -/
theorem quotient_eq_attnRow {ι : Type*} [Fintype ι] [Nonempty ι] (f g : ι → ℝ) (μ : ℝ) :
    (∑ i, Real.exp (f i - μ) * g i) / (∑ i, Real.exp (f i - μ)) = attnRow f g := by
  have h0 : (∑ i, Real.exp (f i - 0)) ≠ 0 := (norm_pos f 0).ne'
  rw [quotient_shift f g μ 0, attnRow, Finset.sum_div]
  refine Finset.sum_congr rfl fun i _ => ?_
  simp only [sub_zero]; ring

/-- THE KERNEL'S FORM: a numerator and a normaliser accumulated at whatever real shift `μ`, then divided. -/
theorem div_acc_eq_attnRow {ι : Type*} [Fintype ι] [Nonempty ι] (f g : ι → ℝ) (μ : ℝ) :
    Ideal.div ((∑ i, Real.exp (f i - μ) * g i : ℝ) : EReal) ((∑ i, Real.exp (f i - μ) : ℝ) : EReal)
      = ((attnRow f g : ℝ) : EReal) := by
  have hμ : (∑ i, Real.exp (f i - μ)) ≠ 0 := (norm_pos f μ).ne'
  rw [Ideal.div_coe hμ, ← EReal.coe_mul, ← div_eq_mul_one_div, quotient_eq_attnRow]

/-- THE REFERENCE'S FORM: each term at shift `M` divided by the normaliser at `M`, then weighted and summed. -/
theorem sum_div_eq_attnRow {ι : Type*} [Fintype ι] [Nonempty ι] (f g : ι → ℝ) (M : ℝ) :
    ∑ i, Ideal.div ((Real.exp (f i - M) : ℝ) : EReal) ((∑ j, Real.exp (f j - M) : ℝ) : EReal) * (g i : EReal)
      = ((attnRow f g : ℝ) : EReal) := by
  rw [← quotient_shift_coe f g M M, div_acc_eq_attnRow]

/-! ## A running maximum of reals is a real -/

/-- The fold of `max` from -∞ over a nonempty finite family of reals is a real. -/
theorem fold_max_real {n : ℕ} [NeZero n] (f : Fin n → ℝ) :
    ∃ μ : ℝ, (Finset.univ : Finset (Fin n)).fold max (⊥ : EReal) (fun i => (f i : EReal)) = (μ : EReal) := by
  set x := (Finset.univ : Finset (Fin n)).fold max (⊥ : EReal) (fun i => (f i : EReal)) with hx
  have hlt : x < ⊤ := by
    rw [hx, Finset.fold_max_lt]
    exact ⟨bot_lt_top, fun i _ => EReal.coe_lt_top _⟩
  have hgt : ⊥ < x := by
    rw [hx, Finset.lt_fold_max]
    exact Or.inr ⟨0, Finset.mem_univ _, EReal.bot_lt_coe _⟩
  exact ⟨x.toReal, (EReal.coe_toReal hlt.ne hgt.ne').symm⟩

/-- The maximum of a real or -∞ with a real is a real. -/
theorem max_bot_coe (a : ℝ) : max (⊥ : EReal) (a : EReal) = (a : EReal) := max_eq_right bot_le

/-- The coercion is monotone, so it commutes with `max`. -/
theorem max_coe_coe (a b : ℝ) : max (a : EReal) (b : EReal) = ((max a b : ℝ) : EReal) :=
  (EReal.coe_strictMono.monotone.map_max).symm

end Cert.OnlineSoftmax

end
-- ==== Proof.Spec.lean ====
/-
  The specification both programs are compared with: dense attention with no scale and no mask,

      G q k v (n, d) = ( ∑_c exp (s n c) * v c d ) / ( ∑_c exp (s n c) ),    s n c = ∑_e q n e * k c e,

  read on the real parts of the three [4096, 1024] arrays (a finite extended real is its real part). The
  exponentials carry no shift here: subtracting a row's maximum, or any other real, from every score of the row
  leaves the quotient unchanged, and that is how each program's shifted form is brought to this one.
-/
import proofs.«421713_j22282290331874_3_alg».proof.Proof.OnlineSoftmax
import Idealize.ShloMosaic.Lib.ValueIdx

noncomputable section

namespace Cert.Attn

open Idealize.ShloMosaic Idealize.ShloMosaic.ValueIdx Cert.OnlineSoftmax

/-- A [4096, 1024] array of extended reals. -/
abbrev Arr : Type := (⟨2, ![4096, 1024]⟩ : Shape).Idx → EReal

/-- Every entry is a real number. -/
def Finite (x : Arr) : Prop := ∀ i, x i = ((x i).toReal : EReal)

/-- The score of query row `n` against key row `c`, on the real parts. -/
def score (q k : Arr) (n c : Fin 4096) : ℝ := ∑ e : Fin 1024, (q (ix2 n e)).toReal * (k (ix2 c e)).toReal

/-- Column `d` of the values, on the real parts. -/
def vcol (v : Arr) (d : Fin 1024) (c : Fin 4096) : ℝ := (v (ix2 c d)).toReal

/-- Dense attention, entry by entry. -/
def G (q k v : Arr) : Arr := fun j => ((attnRow (score q k (j 0)) (vcol v (j 1)) : ℝ) : EReal)

theorem G_apply (q k v : Arr) (n : Fin 4096) (d : Fin 1024) :
    G q k v (ix2 n d) = ((attnRow (score q k n) (vcol v d) : ℝ) : EReal) := rfl

/-- A finite entry read at coordinates. -/
theorem Finite.at {x : Arr} (h : Finite x) (a : Fin 4096) (b : Fin 1024) : x (ix2 a b) = ((x (ix2 a b)).toReal : EReal) := h _

end Cert.Attn

end
-- ==== Proof.AttnBlocks.lean ====
/-
  The three input blocks of a grid point, read at coordinates.

  The grid has 128 points `t`, eight query tiles of 512 rows by sixteen key/value tiles of 256 rows: point `t`
  works on query tile `t / 16` and on key/value tile `t % 16`. A block of a window is its array read through a
  rectangle at (block index × block size) with unit strides, so entry (r, e) of the query block at `t` is entry
  (512·(t / 16) + r, e) of the query array, and entry (c, e) of the key (value) block is entry
  (256·(t % 16) + c, e) of the key (value) array. The block indices are decided once over the whole grid.
-/
import proofs.«421713_j22282290331874_3_alg».proof.Proof.Gen.KernelIdeal.Value
import proofs.«421713_j22282290331874_3_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.AttnValue

open Cert.KernelIdeal Cert.KernelIdeal.Gen Idealize.ShloMosaic.ValueIdx

variable (m : (ℓ : Loc nD τ sig) → Buf (Elt Ideal) ℓ)

/-- The query, key and value arrays as the region finds them, at their literal type. -/
abbrev Qarr (c : Dev nD) : Cert.Attn.Arr := V m c main_arg0
abbrev Karr (c : Dev nD) : Cert.Attn.Arr := V m c main_arg1
abbrev Varr (c : Dev nD) : Cert.Attn.Arr := V m c main_arg2

/-- The three input blocks at point `t`, at their literal types. -/
abbrev qblk (c : Dev nD) (t : Fin cfg0.N) : Vec Ideal S512x1024 .f32 := iblk m c 0 t
abbrev kblk (c : Dev nD) (t : Fin cfg0.N) : Vec Ideal S256x1024 .f32 := iblk m c 1 t
abbrev vblk (c : Dev nD) (t : Fin cfg0.N) : Vec Ideal S256x1024 .f32 := iblk m c 2 t

theorem N128 : cfg0.N = 128 := N_0

/-- Row `r` of the query tile of point `t`, as a row of the whole array. -/
def qrow (t : Fin cfg0.N) (r : Fin 512) : Fin 4096 :=
  ⟨512 * (t.val / 16) + r.val, by have h : t.val < 128 := lt_of_lt_of_eq t.isLt N128; have := r.isLt; omega⟩

/-- Row `c` of the key/value tile of point `t`, as a row of the whole array. -/
def krow (t : Fin cfg0.N) (c : Fin 256) : Fin 4096 :=
  ⟨256 * (t.val % 16) + c.val, by have := c.isLt; omega⟩

/-- The block indices of the four windows, decided over the grid. -/
theorem idx_q : ∀ t : Fin cfg0.N, win0_0.index t 0 = t.val / 16 ∧ win0_0.index t 1 = 0 :=
  (by decide +kernel : ∀ t : Fin grid0.N, win0_0.index t 0 = t.val / 16 ∧ win0_0.index t 1 = 0)
theorem idx_k : ∀ t : Fin cfg0.N, win0_1.index t 0 = t.val % 16 ∧ win0_1.index t 1 = 0 :=
  (by decide +kernel : ∀ t : Fin grid0.N, win0_1.index t 0 = t.val % 16 ∧ win0_1.index t 1 = 0)
theorem idx_v : ∀ t : Fin cfg0.N, win0_2.index t 0 = t.val % 16 ∧ win0_2.index t 1 = 0 :=
  (by decide +kernel : ∀ t : Fin grid0.N, win0_2.index t 0 = t.val % 16 ∧ win0_2.index t 1 = 0)
theorem idx_o : ∀ t : Fin cfg0.N, win0_3.index t 0 = t.val / 16 ∧ win0_3.index t 1 = 0 :=
  (by decide +kernel : ∀ t : Fin grid0.N, win0_3.index t 0 = t.val / 16 ∧ win0_3.index t 1 = 0)

/-- Entry (r, e) of the query block at `t`. -/
theorem qblk_at (c : Dev nD) (t : Fin cfg0.N) (r : Fin 512) (e : Fin 1024) :
    qblk m c t (ix2 r e) = Qarr m c (ix2 (qrow t r) e) := by
  have hi := idx_q t
  unfold qblk iblk
  rw [View.read_apply]
  show V m c main_arg0 _ = V m c main_arg0 _
  congr 1
  funext a
  apply Fin.ext
  match a with
  | ⟨0, _⟩ => show win0_0.index t 0 * 512 + 1 * r.val = 512 * (t.val / 16) + r.val; rw [hi.1]; omega
  | ⟨1, _⟩ => show win0_0.index t 1 * 1024 + 1 * e.val = e.val; rw [hi.2]; omega

/-- Entry (cc, e) of the key block at `t`. -/
theorem kblk_at (c : Dev nD) (t : Fin cfg0.N) (cc : Fin 256) (e : Fin 1024) :
    kblk m c t (ix2 cc e) = Karr m c (ix2 (krow t cc) e) := by
  have hi := idx_k t
  unfold kblk iblk
  rw [View.read_apply]
  show V m c main_arg1 _ = V m c main_arg1 _
  congr 1
  funext a
  apply Fin.ext
  match a with
  | ⟨0, _⟩ => show win0_1.index t 0 * 256 + 1 * cc.val = 256 * (t.val % 16) + cc.val; rw [hi.1]; omega
  | ⟨1, _⟩ => show win0_1.index t 1 * 1024 + 1 * e.val = e.val; rw [hi.2]; omega

/-- Entry (cc, d) of the value block at `t`. -/
theorem vblk_at (c : Dev nD) (t : Fin cfg0.N) (cc : Fin 256) (d : Fin 1024) :
    vblk m c t (ix2 cc d) = Varr m c (ix2 (krow t cc) d) := by
  have hi := idx_v t
  unfold vblk iblk
  rw [View.read_apply]
  show V m c main_arg2 _ = V m c main_arg2 _
  congr 1
  funext a
  apply Fin.ext
  match a with
  | ⟨0, _⟩ => show win0_2.index t 0 * 256 + 1 * cc.val = 256 * (t.val % 16) + cc.val; rw [hi.1]; omega
  | ⟨1, _⟩ => show win0_2.index t 1 * 1024 + 1 * d.val = d.val; rw [hi.2]; omega

end Cert.KernelIdeal.AttnValue

end
-- ==== Proof.Pieces.lean ====
/-
  What one grid point of the attention kernel leaves behind, as values. The kernel's body is run once per
  control case by the generated frame, which records for every buffer the body stores into the list of stored
  pieces; here each such list is read back as ONE value, a named pure function of the point's three input
  blocks (the query tile, the key tile, the value tile) and, except at a reset point, of the three scratch
  contents the point before left (running maximum, normaliser, numerator). Every store covers its whole
  buffer, so a buffer's contents after the body are the payload of its last store; where the body reads a
  scratch it has itself just stored (the reset), the read returns that stored value.
  The statements hold at any float instance; they say nothing yet about what the payloads compute.
-/
import proofs.«421713_j22282290331874_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## Case A: the reset point of a query tile (the first key block): the three scratches are stored −∞, 0, 0 and then updated, so the update reads the reset values back -/

/-- What case A leaves in the scratch holding the running maximum. -/
theorem sA0 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S256x1024 .f32) (x2 : Vec F S256x1024 .f32) :
    sout0_A_0 c i arg2 harg2 arg3 harg3 arg4 harg4 arg5 harg5 arg6 harg6 arg7 harg7 arg8 harg8 hc0 hc1 x0 x1 x2 = k0_pay1 (k0_pay7 x0 x1 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case A leaves in the scratch holding the normaliser. -/
theorem sA1 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S256x1024 .f32) (x2 : Vec F S256x1024 .f32) :
    sout0_A_1 c i arg2 harg2 arg3 harg3 arg4 harg4 arg5 harg5 arg6 harg6 arg7 harg7 arg8 harg8 hc0 hc1 x0 x1 x2 = k0_pay10 x0 x1 (k0_pay3 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case A leaves in the scratch holding the numerator. -/
theorem sA2 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S256x1024 .f32) (x2 : Vec F S256x1024 .f32) :
    sout0_A_2 c i arg2 harg2 arg3 harg3 arg4 harg4 arg5 harg5 arg6 harg6 arg7 harg7 arg8 harg8 hc0 hc1 x0 x1 x2 = k0_pay11 x0 x1 x2 (k0_pay3 (F := F)) (k0_pay5 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-! ## Case B: a point strictly inside a query tile's run over the key blocks: the update reads what the point before left -/

/-- What case B leaves in the scratch holding the running maximum. -/
theorem sB0 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    sout0_B_0 c i arg2 harg2 arg3 harg3 arg4 harg4 arg5 harg5 arg6 harg6 arg7 harg7 arg8 harg8 hc0 hc1 x0 x1 x2 xs0 xs1 xs2 = k0_pay1 (k0_pay7 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case B leaves in the scratch holding the normaliser. -/
theorem sB1 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    sout0_B_1 c i arg2 harg2 arg3 harg3 arg4 harg4 arg5 harg5 arg6 harg6 arg7 harg7 arg8 harg8 hc0 hc1 x0 x1 x2 xs0 xs1 xs2 = k0_pay10 x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case B leaves in the scratch holding the numerator. -/
theorem sB2 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    sout0_B_2 c i arg2 harg2 arg3 harg3 arg4 harg4 arg5 harg5 arg6 harg6 arg7 harg7 arg8 harg8 hc0 hc1 x0 x1 x2 xs0 xs1 xs2 = k0_pay11 x0 x1 x2 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-! ## Case C: the last key block of a query tile: the same update, and then the output block is the numerator divided by the normaliser -/

/-- What case C leaves in the scratch holding the running maximum. -/
theorem sC0 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    sout0_C_0 c i arg2 harg2 arg3 harg3 arg4 harg4 arg5 harg5 arg6 harg6 arg7 harg7 arg8 harg8 hc0 hc1 x0 x1 x2 xs0 xs1 xs2 = k0_pay1 (k0_pay7 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case C leaves in the scratch holding the normaliser. -/
theorem sC1 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    sout0_C_1 c i arg2 harg2 arg3 harg3 arg4 harg4 arg5 harg5 arg6 harg6 arg7 harg7 arg8 harg8 hc0 hc1 x0 x1 x2 xs0 xs1 xs2 = k0_pay10 x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case C leaves in the scratch holding the numerator. -/
theorem sC2 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    sout0_C_2 c i arg2 harg2 arg3 harg3 arg4 harg4 arg5 harg5 arg6 harg6 arg7 harg7 arg8 harg8 hc0 hc1 x0 x1 x2 xs0 xs1 xs2 = k0_pay11 x0 x1 x2 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

/-- What case C leaves in the output block: the updated numerator over the updated normaliser. -/
theorem oC3 (c : Dev nD) (i : grid0.Coords) (arg2 : Memref sig .tc .vmem S512x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S256x1024 .f32) (x2 : Vec F S256x1024 .f32) (xs0 : Vec F S512x1 .f32) (xs1 : Vec F S512x1 .f32) (xs2 : Vec F S512x1024 .f32) :
    out0_C_3 c i arg2 harg2 arg3 harg3 arg4 harg4 arg5 harg5 arg6 harg6 arg7 harg7 arg8 harg8 hc0 hc1 x0 x1 x2 xs0 xs1 xs2 = k0_pay2 (k0_pay11 x0 x1 x2 xs0 xs2) (k0_pay10 x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x1024) hz, View.ld_unit_zero (S := S256x1024) hz, View.ld_unit_zero (S := S512x1) hz,
    View.readCov_unit_zero (S := S512x1) _ hz, View.readCov_unit_zero (S := S512x1024) _ hz]

end Cert.KernelIdeal.Pieces

end
-- ==== Proof.AttnCases.lean ====
/-
  What the carried scratches, and at a tile's last point the output block, hold after a grid point — as the
  body's payloads of that point's three input blocks and of what the point before left. Three kinds of point:
  the first key block of a query tile (`t % 16 = 0`: the scratches restart from −∞, 0, 0), a middle one, and the
  last (`t % 16 = 15`: the same update, and the output block is written). These are the generated frame's case
  equations for its point-by-point contents, with each case's recorded stores read back as one value.
-/
import proofs.«421713_j22282290331874_3_alg».proof.Proof.AttnBlocks
import proofs.«421713_j22282290331874_3_alg».proof.Proof.Pieces

set_option maxRecDepth 16384

noncomputable section

open Idealize.ShloMosaic Idealize.ShloMosaic.TcCoe Idealize.SL.Sem

namespace Cert.KernelIdeal.AttnValue

open Cert.KernelIdeal Cert.KernelIdeal.Gen Cert.KernelIdeal.Pieces Idealize.ShloMosaic.ValueIdx

variable (m : (ℓ : Loc nD τ sig) → Buf (Elt Ideal) ℓ)

/-- What the point before `t` left (the frame's contents at `t - 1`). -/
abbrev prev (c : Dev nD) (t : Fin cfg0.N) :=
  outsAt0 m c (t.val - 1) (Nat.lt_of_le_of_lt (Nat.sub_le _ _) t.isLt)

/-- The scratches after the first key block of a query tile. -/
theorem scr_first (c : Dev nD) (t : Fin cfg0.N) (h0 : t.val % 16 = 0) (h1 : ¬t.val % 16 = 15) :
    (outsAt0 m c t.val t.isLt).2.1 = k0_pay1 (k0_pay7 (qblk m c t) (kblk m c t) (k0_pay3 (F := Ideal)))
    ∧ (outsAt0 m c t.val t.isLt).2.2.1 = k0_pay10 (qblk m c t) (kblk m c t) (k0_pay3 (F := Ideal)) (k0_pay4 (F := Ideal))
    ∧ (outsAt0 m c t.val t.isLt).2.2.2 = k0_pay11 (qblk m c t) (kblk m c t) (vblk m c t) (k0_pay3 (F := Ideal)) (k0_pay5 (F := Ideal)) := by
  rw [outsAt0_A m c t h0 h1]
  dsimp only
  exact ⟨sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- The scratches after a middle key block. -/
theorem scr_mid (c : Dev nD) (t : Fin cfg0.N) (h0 : ¬t.val % 16 = 0) (h1 : ¬t.val % 16 = 15) :
    (outsAt0 m c t.val t.isLt).2.1 = k0_pay1 (k0_pay7 (qblk m c t) (kblk m c t) (prev m c t).2.1)
    ∧ (outsAt0 m c t.val t.isLt).2.2.1 = k0_pay10 (qblk m c t) (kblk m c t) (prev m c t).2.1 (prev m c t).2.2.1
    ∧ (outsAt0 m c t.val t.isLt).2.2.2 = k0_pay11 (qblk m c t) (kblk m c t) (vblk m c t) (prev m c t).2.1 (prev m c t).2.2.2 := by
  rw [outsAt0_B m c t h0 h1]
  dsimp only
  exact ⟨sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2,
    sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2,
    sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2⟩

/-- The scratches, and the output block, after the last key block of a query tile. -/
theorem scr_last (c : Dev nD) (t : Fin cfg0.N) (h0 : ¬t.val % 16 = 0) (h1 : t.val % 16 = 15) :
    (outsAt0 m c t.val t.isLt).2.1 = k0_pay1 (k0_pay7 (qblk m c t) (kblk m c t) (prev m c t).2.1)
    ∧ (outsAt0 m c t.val t.isLt).2.2.1 = k0_pay10 (qblk m c t) (kblk m c t) (prev m c t).2.1 (prev m c t).2.2.1
    ∧ (outsAt0 m c t.val t.isLt).2.2.2 = k0_pay11 (qblk m c t) (kblk m c t) (vblk m c t) (prev m c t).2.1 (prev m c t).2.2.2
    ∧ (outsAt0 m c t.val t.isLt).1 = k0_pay2 (k0_pay11 (qblk m c t) (kblk m c t) (vblk m c t) (prev m c t).2.1 (prev m c t).2.2.2)
        (k0_pay10 (qblk m c t) (kblk m c t) (prev m c t).2.1 (prev m c t).2.2.1) := by
  rw [outsAt0_C m c t h0 h1]
  dsimp only
  exact ⟨sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2,
    sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2,
    sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2,
    oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2⟩

end Cert.KernelIdeal.AttnValue

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payloads.lean ====
/-
  The arithmetic of one step of the attention body, read entry by entry on extended reals.

  A step holds a tile of 512 query rows (x0 : [512, 1024]), a tile of 256 key rows (x1 : [256, 1024]) and the matching
  256 value rows (x2 : [256, 1024]), and carries per query row r a running maximum m (a column [512, 1]), a running
  normaliser l (a column) and a running numerator acc ([512, 1024]). With

      s r c   = ∑ e, x0 r e * x1 c e                      the score block            (pay6)
      m' r    = max (m r) (max over c of s r c)            the new running maximum    (pay7)
      a r     = exp (m r − m' r)                           the rescale factor         (pay8)
      p r c   = exp (s r c − m' r)                         the shifted exponentials   (pay9)
      l' r    = a r * l r + ∑ c, p r c                     the new normaliser         (pay10)
      acc' r d = a r * acc r d + ∑ c, p r c * x2 c d       the new numerator          (pay11)

  and, after the last step, out r d = acc r d / l r (pay2). The resets are m = −∞, l = 0, acc = 0 (pay3, pay4, pay5), and
  a cast of a column to its own shape changes nothing (pay1). Each lemma below reads one of these values at one index;
  a change of float format is the identity on extended reals, so the narrowing of p and x2 before the second product
  leaves no trace.
-/
import proofs.«421713_j22282290331874_3_alg».proof.Proof.Gen.KernelIdeal.Skeleton
import proofs.«421713_j22282290331874_3_alg».proof.Proof.LibKeepdims
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The score block: the first product, contracting the feature axis of both tiles -/

/-- The left operand of the first product is read in the output's row … -/
theorem lhs_qk_0 (i : S512x256.Idx) (q : dot_S512x1024_S256x1024_S512x256_1_1_0_0_n_n.contr.Idx) :
    (dot_S512x1024_S256x1024_S512x256_1_1_0_0_n_n.lhsIdx i q 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
/-- … at the contracted feature; -/
theorem lhs_qk_1 (i : S512x256.Idx) (q : dot_S512x1024_S256x1024_S512x256_1_1_0_0_n_n.contr.Idx) :
    (dot_S512x1024_S256x1024_S512x256_1_1_0_0_n_n.lhsIdx i q 1).val = (q ⟨0, by decide⟩).val :=
  dot_S512x1024_S256x1024_S512x256_1_1_0_0_n_n.lhsIdx_val_of_single rfl i q
/-- the right operand in the row named by the output's column … -/
theorem rhs_qk_0 (i : S512x256.Idx) (q : dot_S512x1024_S256x1024_S512x256_1_1_0_0_n_n.contr.Idx) :
    (dot_S512x1024_S256x1024_S512x256_1_1_0_0_n_n.rhsIdx i q 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
/-- … at the same feature. -/
theorem rhs_qk_1 (i : S512x256.Idx) (q : dot_S512x1024_S256x1024_S512x256_1_1_0_0_n_n.contr.Idx) :
    (dot_S512x1024_S256x1024_S512x256_1_1_0_0_n_n.rhsIdx i q 1).val = (q ⟨0, by decide⟩).val :=
  dot_S512x1024_S256x1024_S512x256_1_1_0_0_n_n.rhsIdx_val_of_single rfl i q

/-- The score of query row `r` against key row `c`: the sum over the 1024 features of the products. -/
theorem pay6_apply (x0 : Vec Ideal S512x1024 .f32) (x1 : Vec Ideal S256x1024 .f32) (r : Fin 512) (c : Fin 256) :
    k0_pay6 x0 x1 (ix2 r c) = ∑ e : Fin 1024, x0 (ix2 r e) * x1 (ix2 c e) := by
  unfold k0_pay6
  simp only [matmul]
  rw [Ideal.matmul_constant_zero_apply, ← Equiv.sum_comp (contrEquiv1 dot_S512x1024_S256x1024_S512x256_1_1_0_0_n_n 1024 rfl rfl).symm]
  refine Finset.sum_congr rfl fun k _ => ?_
  have hk := contrEquiv1_symm_val dot_S512x1024_S256x1024_S512x256_1_1_0_0_n_n 1024 rfl rfl k
  have el : dot_S512x1024_S256x1024_S512x256_1_1_0_0_n_n.lhsIdx (ix2 r c) ((contrEquiv1 dot_S512x1024_S256x1024_S512x256_1_1_0_0_n_n 1024 rfl rfl).symm k) = ix2 r k := funext fun a => Fin.ext (by
    match a with
    | ⟨0, _⟩ => exact lhs_qk_0 _ _
    | ⟨1, _⟩ => exact (lhs_qk_1 _ _).trans hk)
  have er : dot_S512x1024_S256x1024_S512x256_1_1_0_0_n_n.rhsIdx (ix2 r c) ((contrEquiv1 dot_S512x1024_S256x1024_S512x256_1_1_0_0_n_n 1024 rfl rfl).symm k) = ix2 c k := funext fun a => Fin.ext (by
    match a with
    | ⟨0, _⟩ => exact rhs_qk_0 _ _
    | ⟨1, _⟩ => exact (rhs_qk_1 _ _).trans hk)
  rw [el, er]

/-! ## The running maximum, the rescale factor and the shifted exponentials -/

/-- The word the row maximum starts from is `−∞`. -/
theorem ofBits_neg_inf_f32 : Ideal.ofBits .f32 0xFF800000#32 = (⊥ : EReal) := by simp [Ideal.ofBits, Ideal.ieee]

/-- The new running maximum of row `r`: the larger of the old one and the largest score of the row in this key tile. -/
theorem pay7_apply (x0 : Vec Ideal S512x1024 .f32) (x1 : Vec Ideal S256x1024 .f32) (mp : Vec Ideal S512x1 .f32) (r : Fin 512) :
    k0_pay7 x0 x1 mp (ix2 r (0 : Fin 1))
      = max (mp (ix2 r (0 : Fin 1))) ((Finset.univ : Finset (Fin 256)).fold max (⊥ : EReal) (fun c => k0_pay6 x0 x1 (ix2 r c))) := by
  unfold k0_pay7
  rw [maximumf_apply, Cert.LibKeepdims.shapeCast_a_a1_apply]
  refine congrArg (max (mp (ix2 r (0 : Fin 1)))) ?_
  refine (Ideal.multiReduction_maximumf_single (k0_pay6 x0 x1) 0xFF800000#32 reduces_S512x256_S512 (.inl rfl) rfl (ix1 r)).trans ?_
  rw [show FloatOps.ofBits (F := Ideal) .f32 0xFF800000#32 = (⊥ : EReal) from ofBits_neg_inf_f32]
  exact congrArg (Finset.univ.fold max ⊥) (funext fun c => congrArg (k0_pay6 x0 x1) (funext fun a => Fin.ext (by match a with | ⟨0, _⟩ => rfl | ⟨1, _⟩ => rfl)))

/-- The factor that brings what was accumulated against the old maximum to the new one. -/
theorem pay8_apply (x0 : Vec Ideal S512x1024 .f32) (x1 : Vec Ideal S256x1024 .f32) (mp : Vec Ideal S512x1 .f32) (r : Fin 512) :
    k0_pay8 x0 x1 mp (ix2 r (0 : Fin 1)) = Ideal.exp (mp (ix2 r (0 : Fin 1)) - k0_pay7 x0 x1 mp (ix2 r (0 : Fin 1))) := by
  unfold k0_pay8
  rfl

/-- The exponential of a score less the row's new maximum. -/
theorem pay9_apply (x0 : Vec Ideal S512x1024 .f32) (x1 : Vec Ideal S256x1024 .f32) (mp : Vec Ideal S512x1 .f32) (r : Fin 512) (c : Fin 256) :
    k0_pay9 x0 x1 mp (ix2 r c) = Ideal.exp (k0_pay6 x0 x1 (ix2 r c) - k0_pay7 x0 x1 mp (ix2 r (0 : Fin 1))) := by
  unfold k0_pay9
  show Ideal.exp (k0_pay6 x0 x1 (ix2 r c) - broadcastTo S512x256 (k0_pay7 x0 x1 mp) broadcasts_S512x1_S512x256 (ix2 r c)) = _
  rw [Cert.LibKeepdims.broadcastTo_a1_ab_apply]

/-! ## The normaliser and the numerator -/

/-- The new normaliser of row `r`: the old one rescaled, plus the row's exponentials in this key tile. -/
theorem pay10_apply (x0 : Vec Ideal S512x1024 .f32) (x1 : Vec Ideal S256x1024 .f32) (mp lp : Vec Ideal S512x1 .f32) (r : Fin 512) :
    k0_pay10 x0 x1 mp lp (ix2 r (0 : Fin 1))
      = k0_pay8 x0 x1 mp (ix2 r (0 : Fin 1)) * lp (ix2 r (0 : Fin 1)) + ∑ c : Fin 256, k0_pay9 x0 x1 mp (ix2 r c) := by
  unfold k0_pay10
  rw [shapeCast_self, addf_apply, mulf_apply, Cert.LibKeepdims.shapeCast_a_a1_apply]
  refine congrArg (k0_pay8 x0 x1 mp (ix2 r (0 : Fin 1)) * lp (ix2 r (0 : Fin 1)) + ·) ?_
  refine (Ideal.multiReduction_add_single (k0_pay9 x0 x1 mp) 0x00000000#32 reduces_S512x256_S512 (.inl rfl) rfl (ix1 r)).trans ?_
  exact Finset.sum_congr rfl fun c _ => congrArg (k0_pay9 x0 x1 mp) (funext fun a => Fin.ext (by match a with | ⟨0, _⟩ => rfl | ⟨1, _⟩ => rfl))

/-- The left operand of the second product is read in the output's row … -/
theorem lhs_pv_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
/-- … at the contracted key row; -/
theorem lhs_pv_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
/-- the right operand in that key row … -/
theorem rhs_pv_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
/-- … at the output's column. -/
theorem rhs_pv_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The new numerator at `(r, d)`: the old one rescaled, plus the row's exponentials against column `d` of the value tile. -/
theorem pay11_apply (x0 : Vec Ideal S512x1024 .f32) (x1 : Vec Ideal S256x1024 .f32) (x2 : Vec Ideal S256x1024 .f32) (mp : Vec Ideal S512x1 .f32) (ap : Vec Ideal S512x1024 .f32)
    (r : Fin 512) (d : Fin 1024) :
    k0_pay11 x0 x1 x2 mp ap (ix2 r d)
      = k0_pay8 x0 x1 mp (ix2 r (0 : Fin 1)) * ap (ix2 r d) + ∑ c : Fin 256, k0_pay9 x0 x1 mp (ix2 r c) * x2 (ix2 c d) := by
  unfold k0_pay11
  simp only [matmul]
  rw [shapeCast_self, addf_apply, mulf_apply, Cert.LibKeepdims.broadcastTo_a1_ab_apply, Ideal.matmul_constant_zero_apply,
    ← Equiv.sum_comp (contrEquiv1 dot_S512x256_S256x1024_S512x1024_1_0_0_1_n_n 256 rfl rfl).symm]
  refine congrArg (k0_pay8 x0 x1 mp (ix2 r (0 : Fin 1)) * ap (ix2 r d) + ·) (Finset.sum_congr rfl fun k _ => ?_)
  have hk := contrEquiv1_symm_val dot_S512x256_S256x1024_S512x1024_1_0_0_1_n_n 256 rfl rfl k
  have el : dot_S512x256_S256x1024_S512x1024_1_0_0_1_n_n.lhsIdx (ix2 r d) ((contrEquiv1 dot_S512x256_S256x1024_S512x1024_1_0_0_1_n_n 256 rfl rfl).symm k) = ix2 r k := funext fun a => Fin.ext (by
    match a with
    | ⟨0, _⟩ => exact lhs_pv_0 _ _
    | ⟨1, _⟩ => exact (lhs_pv_1 _ _).trans hk)
  have er : dot_S512x256_S256x1024_S512x1024_1_0_0_1_n_n.rhsIdx (ix2 r d) ((contrEquiv1 dot_S512x256_S256x1024_S512x1024_1_0_0_1_n_n 256 rfl rfl).symm k) = ix2 k d := funext fun a => Fin.ext (by
    match a with
    | ⟨0, _⟩ => exact (rhs_pv_0 _ _).trans hk
    | ⟨1, _⟩ => exact rhs_pv_1 _ _)
  rw [el, er, truncf_apply, truncf_apply]

/-! ## The final quotient, the identity cast and the resets -/

/-- The output at `(r, d)`: the numerator over the row's normaliser. -/
theorem pay2_apply (a : Vec Ideal S512x1024 .f32) (l : Vec Ideal S512x1 .f32) (r : Fin 512) (d : Fin 1024) :
    k0_pay2 a l (ix2 r d) = Ideal.div (a (ix2 r d)) (l (ix2 r (0 : Fin 1))) := by
  unfold k0_pay2
  rw [divf_apply, Cert.LibKeepdims.broadcastTo_a1_ab_apply]

/-- A column cast to its own shape is itself. -/
theorem pay1_eq (v : FVec Ideal S512x1 .f32) : k0_pay1 v = v := by
  unfold k0_pay1
  exact shapeCast_self v _

/-- The running maximum is reset to `−∞`. -/
theorem pay3_apply (j : S512x1.Idx) : k0_pay3 (F := Ideal) j = (⊥ : EReal) := by
  unfold k0_pay3
  rw [shapeCast_self, broadcast_apply]
  exact ofBits_neg_inf_f32

/-- The normaliser is reset to zero. -/
theorem pay4_apply (j : S512x1.Idx) : k0_pay4 (F := Ideal) j = (0 : EReal) := by
  unfold k0_pay4
  rw [shapeCast_self, broadcast_apply]
  exact Ideal.ofBits_zero_f32

/-- The numerator is reset to zero. -/
theorem pay5_apply (j : S512x1024.Idx) : k0_pay5 (F := Ideal) j = (0 : EReal) := by
  unfold k0_pay5
  rw [shapeCast_self, broadcast_apply]
  exact Ideal.ofBits_zero_f32

end Cert.KernelIdeal.Pay

end
-- ==== Proof.OnlineStep.lean ====
/-
  One step of the online-softmax recurrence, and its start, in the extended reals.

  The keys of a row are numbered by the naturals (a row of `N` keys uses `0 … N-1`; what the score and weight
  functions say beyond `N` never matters). For a shift `μ`,
      Z s μ n = ∑_{j < n} exp (s j - μ),        A s w μ n = ∑_{j < n} exp (s j - μ) * w j
  are the normaliser and the numerator over the first `n` keys. A step takes these at shift `μ` over `n` keys,
  multiplies them by exp (μ - μ'), and adds the next `b` keys' terms at the new shift `μ'`: by the rescaling
  identity the result is the normaliser, respectively numerator, at shift `μ'` over `n + b` keys. At the start
  the scratch holds zeros, the factor multiplies a zero and contributes nothing whatever its value, and the
  block's own terms are the sums over the first `b` keys.
-/
import proofs.«421713_j22282290331874_3_alg».proof.Proof.OnlineSoftmax

noncomputable section

namespace Cert.OnlineSoftmax

open Idealize.ShloMosaic Finset

/-- The normaliser over the first `n` keys at shift `μ`. -/
def Z (s : ℕ → ℝ) (μ : ℝ) (n : ℕ) : ℝ := ∑ j ∈ range n, Real.exp (s j - μ)

/-- The numerator over the first `n` keys at shift `μ`. -/
def A (s w : ℕ → ℝ) (μ : ℝ) (n : ℕ) : ℝ := ∑ j ∈ range n, Real.exp (s j - μ) * w j

/-- Extending the normaliser by a block of `b` keys. -/
theorem Z_add (s : ℕ → ℝ) (μ : ℝ) (n b : ℕ) :
    Z s μ (n + b) = Z s μ n + ∑ i : Fin b, Real.exp (s (n + i) - μ) := by
  unfold Z; rw [sum_range_add, Finset.sum_range (fun x => Real.exp (s (n + x) - μ))]

/-- Extending the numerator by a block of `b` keys. -/
theorem A_add (s w : ℕ → ℝ) (μ : ℝ) (n b : ℕ) :
    A s w μ (n + b) = A s w μ n + ∑ i : Fin b, Real.exp (s (n + i) - μ) * w (n + i) := by
  unfold A; rw [sum_range_add, Finset.sum_range (fun x => Real.exp (s (n + x) - μ) * w (n + x))]

/-- A STEP OF THE NORMALISER: rescale what is held, add the block's exponentials. -/
theorem step_norm (s : ℕ → ℝ) (n b : ℕ) (μ μ' : ℝ) (blk : Fin b → EReal)
    (hblk : ∀ i : Fin b, blk i = ((Real.exp (s (n + i) - μ') : ℝ) : EReal)) :
    Ideal.exp ((μ : EReal) - (μ' : EReal)) * ((Z s μ n : ℝ) : EReal) + ∑ i, blk i
      = ((Z s μ' (n + b) : ℝ) : EReal) := by
  rw [exp_sub_coe, ← EReal.coe_mul, Finset.sum_congr rfl (fun i _ => hblk i), ← coe_sum, ← EReal.coe_add, Z_add]
  congr 2
  exact rescale_norm (range n) s μ μ'

/-- A STEP OF THE NUMERATOR: rescale what is held, add the block's weighted exponentials. -/
theorem step_num (s w : ℕ → ℝ) (n b : ℕ) (μ μ' : ℝ) (blk : Fin b → EReal)
    (hblk : ∀ i : Fin b, blk i = ((Real.exp (s (n + i) - μ') : ℝ) : EReal) * ((w (n + i) : ℝ) : EReal)) :
    Ideal.exp ((μ : EReal) - (μ' : EReal)) * ((A s w μ n : ℝ) : EReal) + ∑ i, blk i
      = ((A s w μ' (n + b) : ℝ) : EReal) := by
  have hb : ∀ i : Fin b, blk i = ((Real.exp (s (n + i) - μ') * w (n + i) : ℝ) : EReal) := fun i => by
    rw [hblk i, EReal.coe_mul]
  rw [exp_sub_coe, ← EReal.coe_mul, Finset.sum_congr rfl (fun i _ => hb i), ← coe_sum, ← EReal.coe_add, A_add]
  congr 2
  exact rescale_sum (range n) s w μ μ'

/-- THE START OF THE NORMALISER: whatever the factor is, it multiplies the zero the reset stored. -/
theorem start_norm (s : ℕ → ℝ) (b : ℕ) (μ' : ℝ) (a : EReal) (blk : Fin b → EReal)
    (hblk : ∀ i : Fin b, blk i = ((Real.exp (s (0 + i) - μ') : ℝ) : EReal)) :
    a * 0 + ∑ i, blk i = ((Z s μ' (0 + b) : ℝ) : EReal) := by
  rw [mul_zero, zero_add, Finset.sum_congr rfl (fun i _ => hblk i), ← coe_sum, Z_add]
  simp [Z]

/-- THE START OF THE NUMERATOR. -/
theorem start_num (s w : ℕ → ℝ) (b : ℕ) (μ' : ℝ) (a : EReal) (blk : Fin b → EReal)
    (hblk : ∀ i : Fin b, blk i = ((Real.exp (s (0 + i) - μ') : ℝ) : EReal) * ((w (0 + i) : ℝ) : EReal)) :
    a * 0 + ∑ i, blk i = ((A s w μ' (0 + b) : ℝ) : EReal) := by
  have hb : ∀ i : Fin b, blk i = ((Real.exp (s (0 + i) - μ') * w (0 + i) : ℝ) : EReal) := fun i => by
    rw [hblk i, EReal.coe_mul]
  rw [mul_zero, zero_add, Finset.sum_congr rfl (fun i _ => hb i), ← coe_sum, A_add]
  simp [A]

/-- Over all `N` keys the two sums are sums over `Fin N`: the form the quotient lemmas take. -/
theorem Z_full (s : ℕ → ℝ) (μ : ℝ) (N : ℕ) : Z s μ N = ∑ j : Fin N, Real.exp (s j - μ) := by
  unfold Z; rw [Finset.sum_range]

theorem A_full (s w : ℕ → ℝ) (μ : ℝ) (N : ℕ) : A s w μ N = ∑ j : Fin N, Real.exp (s j - μ) * w j := by
  unfold A; rw [Finset.sum_range]

/-- THE END: the numerator over the normaliser, both over all `N` keys at whatever shift, is shift-free
    attention along the row. -/
theorem div_A_Z (s w : ℕ → ℝ) (μ : ℝ) (N : ℕ) [NeZero N] :
    Ideal.div ((A s w μ N : ℝ) : EReal) ((Z s μ N : ℝ) : EReal)
      = ((attnRow (fun j : Fin N => s j) (fun j : Fin N => w j) : ℝ) : EReal) := by
  rw [A_full, Z_full]
  exact div_acc_eq_attnRow (fun j : Fin N => s j) (fun j : Fin N => w j) μ

end Cert.OnlineSoftmax

end
-- ==== Proof.AttnRow.lean ====
/-
  One row of one grid point, as real arithmetic.

  Fix a row `r` of a query tile. Suppose the 256 scores of the point's key block along this row are the reals
  `s (n + 0) … s (n + 255)` (keys numbered from `n` on), and the value block's rows are `w d (n + cc)`. If the row
  of the three scratches holds a real shift `μ`, the normaliser `Z s μ n` and the numerator `A s (w d) μ n` over the
  first `n` keys, then after the body's update it holds a real shift `μ'` (the larger of `μ` and the block's row
  maximum), `Z s μ' (n + 256)` and `A s (w d) μ' (n + 256)`: the rescale factor is exp (μ - μ'), the block's terms
  are exp (s - μ'), and the step lemmas of the recurrence apply. From the reset values (−∞, 0, 0) the same update
  gives the block's own row maximum and the sums over the first 256 keys: the factor multiplies a zero.
-/
import proofs.«421713_j22282290331874_3_alg».proof.Proof.Payloads
import proofs.«421713_j22282290331874_3_alg».proof.Proof.OnlineStep

noncomputable section

open Idealize.ShloMosaic

namespace Cert.KernelIdeal.AttnValue

open Cert.KernelIdeal Cert.KernelIdeal.Gen Cert.KernelIdeal.Pay Idealize.ShloMosaic.ValueIdx Cert.OnlineSoftmax

variable (x0 : Vec Ideal S512x1024 .f32) (x1 x2 : Vec Ideal S256x1024 .f32)

/-- The row maximum of a block of real scores, taken from −∞, is a real. -/
theorem blockmax_real (r : Fin 512) (s : ℕ → ℝ) (n : ℕ)
    (hs : ∀ cc : Fin 256, k0_pay6 x0 x1 (ix2 r cc) = ((s (n + cc) : ℝ) : EReal)) :
    ∃ μc : ℝ, (Finset.univ : Finset (Fin 256)).fold max (⊥ : EReal) (fun cc => k0_pay6 x0 x1 (ix2 r cc)) = (μc : EReal) := by
  rw [show (fun cc : Fin 256 => k0_pay6 x0 x1 (ix2 r cc)) = (fun cc : Fin 256 => ((s (n + cc.val) : ℝ) : EReal)) from funext hs]
  exact fold_max_real (fun cc : Fin 256 => s (n + cc))

/-- THE UPDATE of a row that holds a real shift and the two partial sums over the first `n` keys. -/
theorem row_step (mp lp : Vec Ideal S512x1 .f32) (ap : Vec Ideal S512x1024 .f32) (r : Fin 512) (s : ℕ → ℝ)
    (w : Fin 1024 → ℕ → ℝ) (n : ℕ) (μ : ℝ)
    (hs : ∀ cc : Fin 256, k0_pay6 x0 x1 (ix2 r cc) = ((s (n + cc) : ℝ) : EReal))
    (hw : ∀ (cc : Fin 256) (d : Fin 1024), x2 (ix2 cc d) = ((w d (n + cc) : ℝ) : EReal))
    (hm : mp (ix2 r (0 : Fin 1)) = (μ : EReal))
    (hl : lp (ix2 r (0 : Fin 1)) = ((Z s μ n : ℝ) : EReal))
    (ha : ∀ d : Fin 1024, ap (ix2 r d) = ((A s (w d) μ n : ℝ) : EReal)) :
    ∃ μ' : ℝ, k0_pay7 x0 x1 mp (ix2 r (0 : Fin 1)) = (μ' : EReal)
      ∧ k0_pay10 x0 x1 mp lp (ix2 r (0 : Fin 1)) = ((Z s μ' (n + 256) : ℝ) : EReal)
      ∧ ∀ d : Fin 1024, k0_pay11 x0 x1 x2 mp ap (ix2 r d) = ((A s (w d) μ' (n + 256) : ℝ) : EReal) := by
  obtain ⟨μc, hμc⟩ := blockmax_real x0 x1 r s n hs
  have h7 : k0_pay7 x0 x1 mp (ix2 r (0 : Fin 1)) = ((max μ μc : ℝ) : EReal) := by
    rw [pay7_apply, hm, hμc, max_coe_coe]
  have h8 : k0_pay8 x0 x1 mp (ix2 r (0 : Fin 1)) = Ideal.exp ((μ : EReal) - ((max μ μc : ℝ) : EReal)) := by
    rw [pay8_apply, hm, h7]
  have h9 : ∀ cc : Fin 256, k0_pay9 x0 x1 mp (ix2 r cc) = ((Real.exp (s (n + cc) - max μ μc) : ℝ) : EReal) :=
    fun cc => by rw [pay9_apply, hs cc, h7, exp_sub_coe]
  refine ⟨max μ μc, h7, ?_, fun d => ?_⟩
  · rw [pay10_apply, h8, hl]
    exact step_norm s n 256 μ (max μ μc) (fun cc : Fin 256 => k0_pay9 x0 x1 mp (ix2 r cc)) h9
  · rw [pay11_apply, h8, ha d]
    exact step_num s (w d) n 256 μ (max μ μc) (fun cc : Fin 256 => k0_pay9 x0 x1 mp (ix2 r cc) * x2 (ix2 cc d))
      (fun cc => by rw [h9 cc, hw cc d])

/-- THE START of a row, from the reset values −∞, 0, 0. -/
theorem row_start (r : Fin 512) (s : ℕ → ℝ) (w : Fin 1024 → ℕ → ℝ)
    (hs : ∀ cc : Fin 256, k0_pay6 x0 x1 (ix2 r cc) = ((s (0 + cc) : ℝ) : EReal))
    (hw : ∀ (cc : Fin 256) (d : Fin 1024), x2 (ix2 cc d) = ((w d (0 + cc) : ℝ) : EReal)) :
    ∃ μ' : ℝ, k0_pay7 x0 x1 (k0_pay3 (F := Ideal)) (ix2 r (0 : Fin 1)) = (μ' : EReal)
      ∧ k0_pay10 x0 x1 (k0_pay3 (F := Ideal)) (k0_pay4 (F := Ideal)) (ix2 r (0 : Fin 1)) = ((Z s μ' (0 + 256) : ℝ) : EReal)
      ∧ ∀ d : Fin 1024, k0_pay11 x0 x1 x2 (k0_pay3 (F := Ideal)) (k0_pay5 (F := Ideal)) (ix2 r d)
          = ((A s (w d) μ' (0 + 256) : ℝ) : EReal) := by
  obtain ⟨μc, hμc⟩ := blockmax_real x0 x1 r s 0 hs
  have h7 : k0_pay7 x0 x1 (k0_pay3 (F := Ideal)) (ix2 r (0 : Fin 1)) = (μc : EReal) := by
    rw [pay7_apply, pay3_apply, hμc, max_bot_coe]
  have h9 : ∀ cc : Fin 256, k0_pay9 x0 x1 (k0_pay3 (F := Ideal)) (ix2 r cc) = ((Real.exp (s (0 + cc) - μc) : ℝ) : EReal) :=
    fun cc => by rw [pay9_apply, hs cc, h7, exp_sub_coe]
  refine ⟨μc, h7, ?_, fun d => ?_⟩
  · rw [pay10_apply, pay4_apply]
    exact start_norm s 256 μc _ (fun cc : Fin 256 => k0_pay9 x0 x1 (k0_pay3 (F := Ideal)) (ix2 r cc)) h9
  · rw [pay11_apply, pay5_apply]
    exact start_num s (w d) 256 μc _ (fun cc : Fin 256 => k0_pay9 x0 x1 (k0_pay3 (F := Ideal)) (ix2 r cc) * x2 (ix2 cc d))
      (fun cc => by rw [h9 cc, hw cc d])

/-- THE END of a row: the numerator over the normaliser, both over all 4096 keys. -/
theorem row_end (a : Vec Ideal S512x1024 .f32) (l : Vec Ideal S512x1 .f32) (r : Fin 512) (d : Fin 1024) (s w : ℕ → ℝ) (μ : ℝ)
    (hl : l (ix2 r (0 : Fin 1)) = ((Z s μ 4096 : ℝ) : EReal))
    (ha : a (ix2 r d) = ((A s w μ 4096 : ℝ) : EReal)) :
    k0_pay2 a l (ix2 r d) = ((attnRow (fun j : Fin 4096 => s j) (fun j : Fin 4096 => w j) : ℝ) : EReal) := by
  rw [pay2_apply, hl, ha]
  exact div_A_Z s w μ 4096

end Cert.KernelIdeal.AttnValue

end
-- ==== Proof.AttnInv.lean ====
/-
  The invariant of the recurrence over the grid, and what a query tile's last point writes.

  Number the keys of a row 0 … 4095 and let `sN n j` be the real score of query row `n` against key `j`, `wN d j`
  the real entry (j, d) of the values (beyond 4095 the key number wraps; those values are never used). After point
  `t`, which has worked through key tiles 0 … t % 16 of query tile t / 16, each row `r` of the three scratches holds
      a real shift μ,   Z (sN n) μ (256·(t % 16) + 256),   A (sN n) (wN d) μ (256·(t % 16) + 256)     (n = 512·(t / 16) + r):
  the normaliser and numerator over all keys seen so far, at one common real shift. It holds at a tile's first
  point from the reset values, and passes from a point to the next inside a tile by the row update — the three
  kinds of point differ only in what else they do. At a tile's last point all 4096 keys have been seen, and the
  output block's entry (r, d) is numerator over normaliser: attention along row `n`, free of the shift.
-/
import proofs.«421713_j22282290331874_3_alg».proof.Proof.AttnCases
import proofs.«421713_j22282290331874_3_alg».proof.Proof.AttnRow

noncomputable section

open Idealize.ShloMosaic Idealize.ShloMosaic.TcCoe Idealize.SL.Sem

namespace Cert.KernelIdeal.AttnValue

open Cert.KernelIdeal Cert.KernelIdeal.Gen Cert.KernelIdeal.Pay Idealize.ShloMosaic.ValueIdx Cert.OnlineSoftmax Cert.Attn

variable (m : (ℓ : Loc nD τ sig) → Buf (Elt Ideal) ℓ) (c : Dev nD)

/-- Key number `j` as a row of the key/value arrays. -/
def keyOf (j : ℕ) : Fin 4096 := ⟨j % 4096, Nat.mod_lt _ (by norm_num)⟩

/-- The real score of query row `n` against key number `j`. -/
def sN (n : Fin 4096) (j : ℕ) : ℝ := score (Qarr m c) (Karr m c) n (keyOf j)

/-- The real entry (key number `j`, column `d`) of the values. -/
def wN (d : Fin 1024) (j : ℕ) : ℝ := vcol (Varr m c) d (keyOf j)

theorem keyOf_blk (t : Fin cfg0.N) (cc : Fin 256) : keyOf (256 * (t.val % 16) + cc.val) = krow t cc := by
  apply Fin.ext
  show (256 * (t.val % 16) + cc.val) % 4096 = 256 * (t.val % 16) + cc.val
  have := cc.isLt; omega

theorem keyOf_fin (j : Fin 4096) : keyOf j.val = j := Fin.ext (Nat.mod_eq_of_lt j.isLt)

section
variable (hQ : Finite (Qarr m c)) (hK : Finite (Karr m c)) (hV : Finite (Varr m c))
include hQ hK

/-- The score block of point `t`, entry (r, cc): the real score of row 512·(t / 16) + r against key 256·(t % 16) + cc. -/
theorem blk_score (t : Fin cfg0.N) (r : Fin 512) (cc : Fin 256) :
    k0_pay6 (qblk m c t) (kblk m c t) (ix2 r cc) = ((sN m c (qrow t r) (256 * (t.val % 16) + cc.val) : ℝ) : EReal) := by
  rw [pay6_apply]
  unfold sN
  rw [keyOf_blk]
  unfold score
  rw [coe_sum]
  refine Finset.sum_congr rfl fun e _ => ?_
  rw [qblk_at, kblk_at, EReal.coe_mul, ← hQ.at (qrow t r) e, ← hK.at (krow t cc) e]
end

section
variable (hV : Finite (Varr m c))
include hV

/-- The value block of point `t`, entry (cc, d). -/
theorem blk_val (t : Fin cfg0.N) (cc : Fin 256) (d : Fin 1024) :
    vblk m c t (ix2 cc d) = ((wN m c d (256 * (t.val % 16) + cc.val) : ℝ) : EReal) := by
  unfold wN vcol
  rw [keyOf_blk, vblk_at]
  exact hV.at (krow t cc) d
end

/-- THE INVARIANT after point `t`. -/
def InvAt (t : Fin cfg0.N) : Prop :=
  ∀ r : Fin 512, ∃ μ : ℝ,
    (outsAt0 m c t.val t.isLt).2.1 (ix2 r (0 : Fin 1)) = (μ : EReal)
    ∧ (outsAt0 m c t.val t.isLt).2.2.1 (ix2 r (0 : Fin 1))
        = ((Z (sN m c (qrow t r)) μ (256 * (t.val % 16) + 256) : ℝ) : EReal)
    ∧ ∀ d : Fin 1024, (outsAt0 m c t.val t.isLt).2.2.2 (ix2 r d)
        = ((A (sN m c (qrow t r)) (wN m c d) μ (256 * (t.val % 16) + 256) : ℝ) : EReal)

section
variable (hQ : Finite (Qarr m c)) (hK : Finite (Karr m c)) (hV : Finite (Varr m c))
include hQ hK hV

/-- It holds after the first key tile of a query tile. -/
theorem inv_first (t : Fin cfg0.N) (h0 : t.val % 16 = 0) : InvAt m c t := by
  intro r
  have h1 : ¬t.val % 16 = 15 := by omega
  obtain ⟨e0, e1, e2⟩ := scr_first m c t h0 h1
  have hs : ∀ cc : Fin 256, k0_pay6 (qblk m c t) (kblk m c t) (ix2 r cc) = ((sN m c (qrow t r) (0 + cc.val) : ℝ) : EReal) := fun cc => by
    rw [blk_score m c hQ hK t r cc, h0]
  have hw : ∀ (cc : Fin 256) (d : Fin 1024), vblk m c t (ix2 cc d) = ((wN m c d (0 + cc.val) : ℝ) : EReal) := fun cc d => by
    rw [blk_val m c hV t cc d, h0]
  obtain ⟨μ', h7, h10, h11⟩ := row_start (qblk m c t) (kblk m c t) (vblk m c t) r (sN m c (qrow t r)) (fun d => wN m c d) hs hw
  refine ⟨μ', ?_, ?_, fun d => ?_⟩
  · rw [e0, pay1_eq]; exact h7
  · rw [e1, h0]; exact h10
  · rw [e2, h0]; exact h11 d

/-- It passes from a point to the next one inside a query tile. -/
theorem inv_next (t : Fin cfg0.N) (h0 : ¬t.val % 16 = 0)
    (ih : InvAt m c ⟨t.val - 1, Nat.lt_of_le_of_lt (Nat.sub_le _ _) t.isLt⟩) : InvAt m c t := by
  intro r
  obtain ⟨μ, hm, hl, ha⟩ := ih r
  have hrow : qrow ⟨t.val - 1, Nat.lt_of_le_of_lt (Nat.sub_le _ _) t.isLt⟩ r = qrow t r := by
    apply Fin.ext
    show 512 * ((t.val - 1) / 16) + r.val = 512 * (t.val / 16) + r.val
    omega
  have hcnt : 256 * ((t.val - 1) % 16) + 256 = 256 * (t.val % 16) := by omega
  have hl' : (prev m c t).2.2.1 (ix2 r (0 : Fin 1)) = ((Z (sN m c (qrow t r)) μ (256 * (t.val % 16)) : ℝ) : EReal) := by
    have := hl; rw [hrow] at this; rw [← hcnt]; exact this
  have ha' : ∀ d : Fin 1024, (prev m c t).2.2.2 (ix2 r d) = ((A (sN m c (qrow t r)) (wN m c d) μ (256 * (t.val % 16)) : ℝ) : EReal) := fun d => by
    have := ha d; rw [hrow] at this; rw [← hcnt]; exact this
  have hs : ∀ cc : Fin 256, k0_pay6 (qblk m c t) (kblk m c t) (ix2 r cc) = ((sN m c (qrow t r) (256 * (t.val % 16) + cc.val) : ℝ) : EReal) :=
    fun cc => blk_score m c hQ hK t r cc
  have hw : ∀ (cc : Fin 256) (d : Fin 1024), vblk m c t (ix2 cc d) = ((wN m c d (256 * (t.val % 16) + cc.val) : ℝ) : EReal) :=
    fun cc d => blk_val m c hV t cc d
  obtain ⟨μ', h7, h10, h11⟩ := row_step (qblk m c t) (kblk m c t) (vblk m c t) (prev m c t).2.1 (prev m c t).2.2.1 (prev m c t).2.2.2 r
    (sN m c (qrow t r)) (fun d => wN m c d) (256 * (t.val % 16)) μ hs hw hm hl' ha'
  have e : (outsAt0 m c t.val t.isLt).2.1 = k0_pay1 (k0_pay7 (qblk m c t) (kblk m c t) (prev m c t).2.1)
      ∧ (outsAt0 m c t.val t.isLt).2.2.1 = k0_pay10 (qblk m c t) (kblk m c t) (prev m c t).2.1 (prev m c t).2.2.1
      ∧ (outsAt0 m c t.val t.isLt).2.2.2 = k0_pay11 (qblk m c t) (kblk m c t) (vblk m c t) (prev m c t).2.1 (prev m c t).2.2.2 := by
    by_cases h1 : t.val % 16 = 15
    · exact ⟨(scr_last m c t h0 h1).1, (scr_last m c t h0 h1).2.1, (scr_last m c t h0 h1).2.2.1⟩
    · exact scr_mid m c t h0 h1
  obtain ⟨e0, e1, e2⟩ := e
  refine ⟨μ', ?_, ?_, fun d => ?_⟩
  · rw [e0, pay1_eq]; exact h7
  · rw [e1]; exact h10
  · rw [e2]; exact h11 d

/-- THE INVARIANT holds after every point: by induction on the point, never by listing the grid. -/
theorem inv_all : ∀ (n : ℕ) (h : n < cfg0.N), InvAt m c ⟨n, h⟩
  | 0, h => inv_first m c hQ hK hV ⟨0, h⟩ (Nat.zero_mod 16)
  | n + 1, h => by
    by_cases h0 : (n + 1) % 16 = 0
    · exact inv_first m c hQ hK hV ⟨n + 1, h⟩ h0
    · exact inv_next m c hQ hK hV ⟨n + 1, h⟩ h0 (inv_all n (Nat.lt_of_succ_lt h))

/-- WHAT THE LAST POINT OF A QUERY TILE WRITES: the specification's entries of that tile. -/
theorem out_last (t : Fin cfg0.N) (h1 : t.val % 16 = 15) (r : Fin 512) (d : Fin 1024) :
    (outsAt0 m c t.val t.isLt).1 (ix2 r d) = G (Qarr m c) (Karr m c) (Varr m c) (ix2 (qrow t r) d) := by
  have h0 : ¬t.val % 16 = 0 := by omega
  obtain ⟨-, e1, e2, e3⟩ := scr_last m c t h0 h1
  obtain ⟨μ, -, hl, ha⟩ := inv_all m c hQ hK hV t.val t.isLt r
  have hcnt : 256 * (t.val % 16) + 256 = 4096 := by omega
  rw [hcnt] at hl
  have ha' := ha d
  rw [hcnt] at ha'
  rw [e3, G_apply]
  have hl2 : k0_pay10 (qblk m c t) (kblk m c t) (prev m c t).2.1 (prev m c t).2.2.1 (ix2 r (0 : Fin 1))
      = ((Z (sN m c (qrow t r)) μ 4096 : ℝ) : EReal) := (congrFun e1 _).symm.trans hl
  have ha2 : k0_pay11 (qblk m c t) (kblk m c t) (vblk m c t) (prev m c t).2.1 (prev m c t).2.2.2 (ix2 r d)
      = ((A (sN m c (qrow t r)) (wN m c d) μ 4096 : ℝ) : EReal) := (congrFun e2 _).symm.trans ha'
  rw [row_end _ _ r d (sN m c (qrow t r)) (wN m c d) μ hl2 ha2]
  congr 2
  · funext j; unfold sN; rw [keyOf_fin]
  · funext j; unfold wN; rw [keyOf_fin]

end

end Cert.KernelIdeal.AttnValue

end
-- ==== Proof.AttnFinal.lean ====
/-
  From the output blocks to the output array.

  The output window is written back only at the last point of each query tile (`t % 16 = 15`), and what is written
  there is the tile's block of the specification `G` (the invariant's consequence). The eight tiles' blocks are rows
  512·q … 512·q + 511 of the array, so every index (i₀, i₁) lies in the block written at point 16·(i₀ / 512) + 15.
  An array all of whose indices are covered by written-back blocks, each of them a block of one whole-array
  function, ends as that function: the kernel's result array is `G` of its three argument arrays.
-/
import proofs.«421713_j22282290331874_3_alg».proof.Proof.AttnInv

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx Cert.Attn

variable (m : (ℓ : Loc nD τ sig) → Buf (Elt Ideal) ℓ) (ρ : Dev nD → PrngReg) (c : Dev nD)

section
variable (hQ : Finite (Qarr m c)) (hK : Finite (Karr m c)) (hV : Finite (Varr m c))
include hQ hK hV

/-- The output block of a tile's last point at any index of the block. -/
theorem out_last_idx (t : Fin cfg0.N) (h1 : t.val % 16 = 15) (j : S512x1024.Idx) :
    (outsAt0 m c t.val t.isLt).1 j = G (Qarr m c) (Karr m c) (Varr m c) (ix2 (qrow t (j 0)) (j 1)) := by
  obtain ⟨p, q, rfl⟩ : ∃ (p : Fin 512) (q : Fin 1024), j = ix2 p q := ⟨j 0, j 1, eq_ix2 j⟩
  exact out_last m c hQ hK hV t h1 p q

/-- WHAT A WRITING POINT WRITES BACK is its block of `G` of the argument arrays. -/
theorem flushed_eq (t : Fin cfg0.N) (hf : (cfg0.win 3).flush t = true) :
    (dats m 0 c).flushed 3 t = ((cfg0.win 3).blk t).view.read (Elt Ideal) (G (Qarr m c) (Karr m c) (Varr m c)) := by
  have h1 : t.val % 16 = 15 := (flush0_3 t).mp hf
  obtain ⟨e0, e1⟩ := idx_o t
  rw [Cert.KernelIdeal.Value.flushed3]
  funext j
  show (outsAt0 m c t.val t.isLt).1 j = G (Qarr m c) (Karr m c) (Varr m c) (((cfg0.win 3).blk t).view.emb j)
  refine (out_last_idx m c hQ hK hV t h1 j).trans ?_
  congr 1
  funext a; apply Fin.ext
  match a with
  | ⟨0, _⟩ => show 512 * (t.val / 16) + (j 0).val = win0_3.index t 0 * 512 + 1 * (j 0).val; rw [e0]; omega
  | ⟨1, _⟩ => show (j 1).val = win0_3.index t 1 * 1024 + 1 * (j 1).val; rw [e1]; omega
end

/-- An index of the array is in point `t`'s output block iff each coordinate is in the block's range on its axis. -/
theorem mem_blk (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0).slice (win0_3.rect t)).set ↔ _
  rw [View.set_slice_whole, Rect.mem_set_unit]
  exact Iff.rfl

/-- EVERY INDEX IS WRITTEN: by the last point of its query tile. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ : ∃ t : Fin cfg0.N, t.val = 16 * ((i 0).val / 512) + 15 :=
    ⟨⟨16 * ((i 0).val / 512) + 15, by rw [N128]; omega⟩, rfl⟩
  obtain ⟨e0, e1⟩ := idx_o t
  refine ⟨t, (flush0_3 t).mpr (by omega), ?_⟩
  rw [mem_blk]
  intro a
  match a with
  | ⟨0, _⟩ =>
    show win0_3.index t 0 * 512 ≤ (i 0).val ∧ (i 0).val < win0_3.index t 0 * 512 + 512
    rw [e0]; omega
  | ⟨1, _⟩ =>
    show win0_3.index t 1 * 1024 ≤ (i 1).val ∧ (i 1).val < win0_3.index t 1 * 1024 + 1024
    rw [e1]; omega

section
variable (hQ : Finite (Qarr m c)) (hK : Finite (Karr m c)) (hV : Finite (Varr m c))
include hQ hK hV

/-- THE RESULT ARRAY after the run is `G` of the three argument arrays. -/
theorem final : (dats m 0 c).arrAt 3 cfg0.N = G (Qarr m c) (Karr m c) (Varr m c) :=
  (dats m 0 c).arrAt_eq_of_cover 3 (G (Qarr m c) (Karr m c) (Varr m c)) (flushed_eq m c hQ hK hV) (covered)
end

/-- The kernel's run, read: under finite inputs the result array is `G` of the arguments, which are unchanged. -/
theorem run (hfin : ∀ c : Dev nD, Finite (Qarr m c) ∧ Finite (Karr m c) ∧ Finite (Varr m c)) :
    θ_run defs (onTc (τ := τ) (main (F := Ideal))) ⟨m, fun _ => 0, ρ⟩ fun r => ∀ c : Dev nD,
      r.2.mem ((c : Thread nD τ).loc main_v0) = G (Qarr m c) (Karr m c) (Varr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (Cert.KernelIdeal.Value.run_blocks m ρ)

end Cert.KernelIdeal.AttnValue

end
-- ==== Proof.RefValue.lean ====
/-
  The reference program computes the specification. It is softmax attention with the row maximum subtracted inside
  the exponentials: at (n, d) its result is

      ∑_c ( exp (s n c - m n) / ∑_c' exp (s n c' - m n) ) * v c d,

  where s n c = ∑_e q n e * k c e is the score of query row n against key row c and m n is the maximum of row n of
  the scores. On finite inputs every score is a real number, so the row maximum, the fold of max from -∞ over 4096
  reals, is a real number too; WHICH real it is does not matter, because the weighted quotient does not depend on the
  shift subtracted inside the exponentials. Each stage of the program is read at an index, from the scores down to
  the last contraction, and the last stage is the shift-free form Cert.Attn.G.
-/
import proofs.«421713_j22282290331874_3_alg».proof.Proof.Gen.ReferenceIdeal.Read
import proofs.«421713_j22282290331874_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read Cert.OnlineSoftmax

variable [Cert.ReferenceIdeal.Facts]

/-- A [4096, 1024] array of ideal f32 values: the type of each of the three arguments. -/
abbrev Arg : Type := (⟨S4096x1024, .f32⟩ : BufTy).Contents (Elt Ideal)

/-! ## The indices each stage reads, by coordinates -/

/-- The scores' left operand at (n, c), contraction position e, is q at (n, e). -/
theorem lidx_v0 (n c : Fin 4096) (e : Fin 1024) : lidx_main_v0 (ix2 n c) e = ix2 n e :=
  funext fun a => Fin.ext (by match a with | ⟨0, _⟩ => rfl | ⟨1, _⟩ => rfl)

/-- The scores' right operand at (n, c), contraction position e, is k at (c, e): both contract their second axis. -/
theorem ridx_v0 (n c : Fin 4096) (e : Fin 1024) : ridx_main_v0 (ix2 n c) e = ix2 c e :=
  funext fun a => Fin.ext (by match a with | ⟨0, _⟩ => rfl | ⟨1, _⟩ => rfl)

/-- The row maximum, kept as a column and laid along the row, is read at (n, c) from entry n of the vector. -/
theorem idx_v45 (n c : Fin 4096) : idx_main_v4 (idx_main_v5 (ix2 n c)) = ix1 n :=
  funext fun a => Fin.ext (by match a with | ⟨0, _⟩ => rfl)

/-- The row sum at n adds the entries (n, c) over c. -/
theorem idx_v8 (n c : Fin 4096) : idx_main_v8 (ix1 n) c = ix2 n c :=
  funext fun a => Fin.ext (by match a with | ⟨0, _⟩ => rfl | ⟨1, _⟩ => rfl)

/-- The row sum, kept as a column and laid along the row, is read at (n, c) from entry n of the vector. -/
theorem idx_v910 (n c : Fin 4096) : idx_main_v9 (idx_main_v10 (ix2 n c)) = ix1 n :=
  funext fun a => Fin.ext (by match a with | ⟨0, _⟩ => rfl)

/-- The last contraction's left operand at (n, d), position c, is the weight at (n, c). -/
theorem lidx_v12 (n : Fin 4096) (d : Fin 1024) (c : Fin 4096) : lidx_main_v12 (ix2 n d) c = ix2 n c :=
  funext fun a => Fin.ext (by match a with | ⟨0, _⟩ => rfl | ⟨1, _⟩ => rfl)

/-- The last contraction's right operand at (n, d), position c, is v at (c, d). -/
theorem ridx_v12 (n : Fin 4096) (d : Fin 1024) (c : Fin 4096) : ridx_main_v12 (ix2 n d) c = ix2 c d :=
  funext fun a => Fin.ext (by match a with | ⟨0, _⟩ => rfl | ⟨1, _⟩ => rfl)

/-- The row reductions drop the second axis of the [4096, 4096] score matrix. -/
theorem reduces_row : S4096x4096.Reduces [1] S4096 := by decide

/-- Row n with the coordinate c put back on the dropped axis is the entry (n, c). -/
theorem lift_row (n c : Fin 4096) : reduces_row.lift (ix1 n) c = ix2 n c :=
  funext fun a => Fin.ext (by match a with | ⟨0, _⟩ => rfl | ⟨1, _⟩ => rfl)

/-- The word 0xFF800000 is -∞. -/
theorem neg_inf_word : Ideal.ofBits .f32 0xFF800000#32 = (⊥ : EReal) := by simp [Ideal.ofBits, Ideal.ieee]

/-! ## The stages, one at a time -/

/-- The scores: on finite inputs the entry (n, c) of q kᵀ is the real number s n c. -/
theorem score_at (q k : Arg) (hq : Cert.Attn.Finite q) (hk : Cert.Attn.Finite k) (n c : Fin 4096) :
    val_main_v0 (F := Ideal) q k (ix2 n c) = ((Cert.Attn.score q k n c : ℝ) : EReal) := by
  rw [val_main_v0_apply, Cert.Attn.score, coe_sum]
  refine Finset.sum_congr rfl fun e _ => ?_
  rw [lidx_v0, ridx_v0, EReal.coe_mul, ← hq.at n e, ← hk.at c e]

/-- The row maximum: the fold of max from -∞ over the 4096 real scores of row n, then max with -∞ once more, is
    a real number. -/
theorem rowmax_at (q k : Arg) (hq : Cert.Attn.Finite q) (hk : Cert.Attn.Finite k) (n : Fin 4096) :
    ∃ M : ℝ, val_main_v3 (F := Ideal) q k (ix1 n) = (M : EReal) := by
  obtain ⟨M, hM⟩ := fold_max_real (fun c : Fin 4096 => Cert.Attn.score q k n c)
  refine ⟨M, ?_⟩
  have hbot : val_main_cst (F := Ideal) (Shape.Idx.first h_S_) = (⊥ : EReal) := by
    rw [val_main_cst_apply]; exact neg_inf_word
  have h1 : val_main_v1 (F := Ideal) q k (ix1 n) = (M : EReal) := by
    unfold val_main_v1
    rw [Host.reduce_eq_fold_single FloatOps.maximumf _ _ _ reduces_row h_S_ (ix1 n), hbot]
    refine (Finset.fold_congr fun c _ => ?_).trans hM
    exact (congrArg (val_main_v0 (F := Ideal) q k) (lift_row n c)).trans (score_at q k hq hk n c)
  rw [val_main_v3_apply, h1, val_main_v2_apply, val_main_cst_0_apply]
  show max (Ideal.ofBits .f32 0xFF800000#32) (M : EReal) = (M : EReal)
  rw [neg_inf_word]
  exact max_bot_coe M

/-- The exponentials: with the row maximum the real M, the entry (n, c) is exp (s n c - M). -/
theorem exp_at (q k : Arg) (hq : Cert.Attn.Finite q) (hk : Cert.Attn.Finite k) (n : Fin 4096) (M : ℝ)
    (hM : val_main_v3 (F := Ideal) q k (ix1 n) = (M : EReal)) (c : Fin 4096) :
    val_main_v7 (F := Ideal) q k (ix2 n c) = ((Real.exp (Cert.Attn.score q k n c - M) : ℝ) : EReal) := by
  rw [val_main_v7_apply, val_main_v6_apply, val_main_v5_apply, val_main_v4_apply, idx_v45, hM, score_at q k hq hk]
  exact exp_sub_coe _ _

/-- The normaliser: the sum from the zero word of row n's exponentials is the real sum. -/
theorem norm_at (q k : Arg) (hq : Cert.Attn.Finite q) (hk : Cert.Attn.Finite k) (n : Fin 4096) (M : ℝ)
    (hM : val_main_v3 (F := Ideal) q k (ix1 n) = (M : EReal)) :
    val_main_v8 (F := Ideal) q k (ix1 n) = ((∑ c : Fin 4096, Real.exp (Cert.Attn.score q k n c - M) : ℝ) : EReal) := by
  rw [val_main_v8_apply, val_main_cst_1_apply, coe_sum]
  show Ideal.ofBits .f32 0x00000000#32 + _ = _
  rw [Ideal.ofBits_zero_f32, zero_add]
  refine Finset.sum_congr rfl fun c _ => ?_
  rw [idx_v8, exp_at q k hq hk n M hM c]

/-- The weights: the entry (n, c) is that exponential divided by the row's normaliser. -/
theorem weight_at (q k : Arg) (hq : Cert.Attn.Finite q) (hk : Cert.Attn.Finite k) (n : Fin 4096) (M : ℝ)
    (hM : val_main_v3 (F := Ideal) q k (ix1 n) = (M : EReal)) (c : Fin 4096) :
    val_main_v11 (F := Ideal) q k (ix2 n c)
      = Ideal.div ((Real.exp (Cert.Attn.score q k n c - M) : ℝ) : EReal)
          ((∑ c' : Fin 4096, Real.exp (Cert.Attn.score q k n c' - M) : ℝ) : EReal) := by
  rw [val_main_v11_apply, val_main_v10_apply, val_main_v9_apply, idx_v910, norm_at q k hq hk n M hM,
    exp_at q k hq hk n M hM c]
  rfl

/-! ## The result -/

/-- The reference's result is dense attention: the weights at shift M, each times its value and summed, are the
    shift-free quotient. -/
theorem val_eq_G (q k v : (⟨S4096x1024, .f32⟩ : BufTy).Contents (Elt Ideal))
    (hq : Cert.Attn.Finite q) (hk : Cert.Attn.Finite k) (hv : Cert.Attn.Finite v) :
    val_main_v12 (F := Ideal) q k v = Cert.Attn.G q k v := by
  funext j
  obtain ⟨n, d, rfl⟩ : ∃ (n : Fin 4096) (d : Fin 1024), j = ix2 n d := ⟨j 0, j 1, eq_ix2 j⟩
  obtain ⟨M, hM⟩ := rowmax_at q k hq hk n
  rw [val_main_v12_apply, Cert.Attn.G_apply, ← sum_div_eq_attnRow (Cert.Attn.score q k n) (Cert.Attn.vcol v d) M]
  refine Finset.sum_congr rfl fun c _ => ?_
  rw [lidx_v12, ridx_v12, weight_at q k hq hk n M hM c, hv.at c d]
  rfl

end Cert.ReferenceIdeal.RefValue

end
-- ==== Proof.FiniteInputs.lean ====
/-
  From the printed precondition to "every entry of the three inputs is a real number".

  The precondition is the conjunction, over the three [4096, 1024] arrays, of the reduction by `and` over both axes
  of the bit `|x| < +∞`. A reduction by `and` into a single result that is 1 had a 1 at every operand index; at an
  extended real x the bit `max x (-x) < ⊤` excludes x = ⊤ (then max x (-x) = ⊤) and x = ⊥ (then -x = ⊤), and an extended
  real that is neither is the coercion of its real part.
-/
import proofs.«421713_j22282290331874_3_alg».proof.Pre_finite_inputs
import proofs.«421713_j22282290331874_3_alg».proof.Proof.Spec
import Idealize.ShloMosaic.Lib.ReduceAll
import Idealize.ShloMosaic.PureOps.Ideal.Laws
import Idealize.ShloMosaic.Lib.ValueIdx

noncomputable section

namespace Cert.FiniteInputs

open Idealize.ShloMosaic

/-- A rank-0 shape has exactly one index. -/
instance : Subsingleton Cert.Pre_finite_inputs.S_.Idx := ⟨fun a b => funext fun d => d.elim0⟩

/-- The f32 pattern `0x7F800000` is `+∞`. -/
theorem ofBits_inf : Ideal.ofBits .f32 0x7F800000#32 = (⊤ : EReal) := by simp [Ideal.ofBits, Ideal.ieee]

/-- An extended real whose absolute value `max x (-x)` is below `+∞` is the coercion of its real part. -/
theorem coe_toReal_of_abs_lt_top (x : EReal) (h : max x (-x) < (⊤ : EReal)) : x = ((x.toReal : ℝ) : EReal) := by
  have hx : x ≠ ⊤ := fun e => by rw [e] at h; simp at h
  have hx' : x ≠ ⊥ := fun e => by rw [e] at h; simp at h
  exact (EReal.coe_toReal hx hx').symm

/-- The bit `|x| < +∞` at an extended real, when it is 1, says x is a real number. -/
theorem coe_toReal_of_bit (x : Ideal .f32)
    (h : FloatOps.cmpf .olt (FloatOps.hostAbsf x) (FloatOps.ofBits (F := Ideal) .f32 0x7F800000#32) = 1#1) :
    (x : EReal) = (((x : EReal).toReal : ℝ) : EReal) := by
  refine coe_toReal_of_abs_lt_top x ?_
  have h' : Ideal.cmp .olt (max (x : EReal) (-x)) (Ideal.ofBits .f32 0x7F800000#32) = 1#1 := h
  rw [ofBits_inf] at h'
  unfold Ideal.cmp at h'
  by_contra hn
  simp [hn] at h'

/-- One array: the reduction by `and` over both axes of `|x| < +∞` equal to 1 gives that every entry is real. -/
theorem finite_of_all [Cert.Pre_finite_inputs.Facts] (x : FVec Ideal Cert.Pre_finite_inputs.S4096x1024 .f32)
    (e : Host.reduce IntOp.andi
          (cmpf .olt (Host.absf (F := Ideal) x)
            (broadcastInDim Cert.Pre_finite_inputs.S4096x1024 ![] Cert.Pre_finite_inputs.Facts.bcast_S_S4096x1024
              (constant (F := Ideal) Cert.Pre_finite_inputs.S_ .f32 0x7F800000#32)))
          (constantI Cert.Pre_finite_inputs.S_ 1 1#1)
          Cert.Pre_finite_inputs.Facts.reducesTo_S4096x1024_S_d0_1 Cert.Pre_finite_inputs.Facts.h_S_ ValueIdx.ix0 = 1#1) :
    Cert.Attn.Finite x := fun i =>
  coe_toReal_of_bit (x i) (Host.reduce_andi_all _ _ _ _ _ e i)

theorem finite_of_pre [Cert.Pre_finite_inputs.Facts] (a0 a1 a2 : FVec Ideal Cert.Pre_finite_inputs.S4096x1024 .f32)
    (h : Cert.Pre_finite_inputs.fn (F := Ideal) a0 a1 a2 = fun _ => 1#1) :
    Cert.Attn.Finite a0 ∧ Cert.Attn.Finite a1 ∧ Cert.Attn.Finite a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨finite_of_all a0 h0', finite_of_all a1 h1, finite_of_all a2 h2⟩

end Cert.FiniteInputs

end
-- ==== Proof.lean ====
/-
  Dense attention with no scale and no mask over q, k, v of shape [4096, 1024]:

      out (n, d) = ∑_c softmax_c (s n ·) * v (c, d),      s n c = ∑_e q (n, e) * k (c, e).

  The reference computes it as written: the scores, each row's maximum M, exp (s - M), its row sum L, the quotient,
  the product with v. The kernel never holds a row of scores: for each tile of 512 query rows it walks the sixteen
  tiles of 256 keys, keeping per row a running maximum m, a normaliser l and a numerator acc; at each key tile it
  raises m to m', multiplies l and acc by exp (m - m'), adds the tile's exp (s - m') and exp (s - m')·v, and after the
  last tile writes acc / l.
  Over the extended reals with finite inputs the two agree, for two reasons. Multiplying a partial sum of
  exp (s - m) terms by exp (m - m') gives the same partial sum of exp (s - m') terms, so after every key tile l and
  acc are the normaliser and numerator over all keys seen so far at ONE common real shift (the invariant, proved by
  induction along the grid; at a tile's first point the factor multiplies the zeros the reset stored). And
  numerator / normaliser does not depend on that shift, nor does the reference's ∑ (exp (s - M) / L)·v: both are the
  shift-free quotient (∑ exp s · v) / (∑ exp s), the specification G. Finiteness of the inputs is what makes every
  score, shift, exponential and sum a real number, where these laws hold; the precondition gives it.

  The argument, module by module. OnlineSoftmax and OnlineStep: the algebra of the recurrence (rescaling, one step,
  the start, the shift-free quotient). Spec: the specification G. Pieces, Payloads and AttnCases: what each of the three
  kinds of grid point (first, middle, last key tile of a query tile) leaves in the scratches and the output block, as
  values read at an index. AttnBlocks: a block entry as an entry of its array. AttnRow: one row's update as real
  arithmetic. AttnInv: the invariant along the grid, and the block a query tile's last point writes. AttnFinal: every
  index of the result array lies in exactly such a block, so the array is G. RefValue: the reference's stages composed
  are G. FiniteInputs: the precondition says every input entry is a real. The kernel's termination and frame, and the
  reference's run, are the generated modules imported below.
-/
import proofs.«421713_j22282290331874_3_alg».proof.Defs
import proofs.«421713_j22282290331874_3_alg».proof.Proof.Gen.Kernel
import proofs.«421713_j22282290331874_3_alg».proof.Proof.Gen.Kernel.Skeleton
import proofs.«421713_j22282290331874_3_alg».proof.Proof.Gen.Kernel.Launch
import proofs.«421713_j22282290331874_3_alg».proof.Proof.Gen.Kernel.Points
import proofs.«421713_j22282290331874_3_alg».proof.Proof.Gen.Kernel.Frame
import proofs.«421713_j22282290331874_3_alg».proof.Proof.Gen.KernelIdeal
import proofs.«421713_j22282290331874_3_alg».proof.Proof.Gen.KernelIdeal.Skeleton
import proofs.«421713_j22282290331874_3_alg».proof.Proof.Gen.KernelIdeal.Launch
import proofs.«421713_j22282290331874_3_alg».proof.Proof.Gen.KernelIdeal.Points
import proofs.«421713_j22282290331874_3_alg».proof.Proof.Gen.KernelIdeal.Frame
import proofs.«421713_j22282290331874_3_alg».proof.Proof.Gen.ReferenceIdeal
import proofs.«421713_j22282290331874_3_alg».proof.Proof.Gen.Pre_finite_inputs
import proofs.«421713_j22282290331874_3_alg».proof.Proof.Gen.KernelIdeal.Value
import proofs.«421713_j22282290331874_3_alg».proof.Proof.Gen.ReferenceIdeal.Run
import proofs.«421713_j22282290331874_3_alg».proof.Proof.Gen.ReferenceIdeal.Read
import proofs.«421713_j22282290331874_3_alg».proof.Proof.AttnFinal
import proofs.«421713_j22282290331874_3_alg».proof.Proof.RefValue
import proofs.«421713_j22282290331874_3_alg».proof.Proof.FiniteInputs
import Idealize.ShloMosaic.Adequacy
import Idealize.ShloMosaic.Init

noncomputable section

namespace Cert.Proof

open Idealize.ShloMosaic Idealize.SL.Sem Cert.Kernel

/-- The kernel as printed runs and leaves its arguments unchanged: the generated frame. -/
theorem frame_k [Cert.Pre_finite_inputs.Facts] : Cert.frame_Kernel := fun m ρ _ => Cert.Kernel.Gen.frame m ρ

/-- So does its idealization. -/
theorem frame_ki [Cert.Pre_finite_inputs.Facts] : Cert.frame_KernelIdeal := fun m ρ _ => Cert.KernelIdeal.Gen.frame m ρ

/-- The reference runs and leaves its arguments unchanged: its generated run, with the result dropped. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on q, k, v, all finite: the kernel's result array and the reference's result are both
    the specification `G` of the kernel's arguments. -/
theorem algebraic [Cert.Pre_finite_inputs.Facts] : Cert.algebraic_KernelIdeal_ReferenceIdeal := by
  intro m ρ m' ρ' hpre hagree
  have hfin : ∀ c : Dev Cert.KernelIdeal.nD, Cert.Attn.Finite (Cert.KernelIdeal.AttnValue.Qarr m c)
      ∧ Cert.Attn.Finite (Cert.KernelIdeal.AttnValue.Karr m c) ∧ Cert.Attn.Finite (Cert.KernelIdeal.AttnValue.Varr m c) :=
    fun c => Cert.FiniteInputs.finite_of_pre _ _ _ (hpre c)
  refine ⟨fun c => Cert.Attn.G (Cert.KernelIdeal.AttnValue.Qarr m c) (Cert.KernelIdeal.AttnValue.Karr m c)
    (Cert.KernelIdeal.AttnValue.Varr m c), Cert.KernelIdeal.AttnValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  exact Cert.ReferenceIdeal.RefValue.val_eq_G _ _ _ (hfin c).1 (hfin c).2.1 (hfin c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
